-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S32x1x256 : S_.BroadcastsInDim S32x1x256 (![] : Fin 0 → Fin S32x1x256.rank)
  reducesTo_S32x1x256_S_d0_1_2 : S32x1x256.ReducesTo [0, 1, 2] S_
  bcast_S_S32x1025x256 : S_.BroadcastsInDim S32x1025x256 (![] : Fin 0 → Fin S32x1025x256.rank)
  reducesTo_S32x1025x256_S_d0_1_2 : S32x1025x256.ReducesTo [0, 1, 2] S_

variable [Facts]

def fn_part1 {F : FTy → Type} [FloatOps F] (main_arg4 : FVec F S32x1025x256 .f32) (main_v13 : IVec S_ 1) (main_v16 : IVec S32x1x256 1) : IVec S_ 1 :=
  let main_c_5 : IVec S_ 1 := constantI S_ 1 1#1
  let main_v17 : IVec S_ 1 := (fun x v => Host.reduce IntOp.andi x v reducesTo_S32x1x256_S_d0_1_2 h_S_) main_v16 main_c_5
  let main_v18 : IVec S_ 1 := andi main_v13 main_v17
  let main_v19 : FVec F S32x1025x256 .f32 := Host.absf main_arg4
  let main_cst_6 : FVec F S_ .f32 := constant S_ .f32 0x7F800000#32
  let main_v20 : FVec F S32x1025x256 .f32 := broadcastInDim S32x1025x256 ![] bcast_S_S32x1025x256 main_cst_6
  let main_v21 : IVec S32x1025x256 1 := cmpf .olt main_v19 main_v20
  let main_c_7 : IVec S_ 1 := constantI S_ 1 1#1
  let main_v22 : IVec S_ 1 := (fun x v => Host.reduce IntOp.andi x v reducesTo_S32x1025x256_S_d0_1_2 h_S_) main_v21 main_c_7
  let main_v23 : IVec S_ 1 := andi main_v18 main_v22
  main_v23

def fn {F : FTy → Type} [FloatOps F] (main_arg0 : FVec F S32x512x512x3 .f32) (main_arg1 : FVec F S768x256 .f32) (main_arg2 : FVec F S256 .f32) (main_arg3 : FVec F S32x1x256 .f32) (main_arg4 : FVec F S32x1025x256 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x1x256 .f32 := Host.absf main_arg3
  let main_cst_4 : FVec F S_ .f32 := constant S_ .f32 0x7F800000#32
  let main_v15 : FVec F S32x1x256 .f32 := broadcastInDim S32x1x256 ![] bcast_S_S32x1x256 main_cst_4
  let main_v16 : IVec S32x1x256 1 := cmpf .olt main_v14 main_v15
  fn_part1 (F := F) main_arg4 main_v13 main_v16
-- ==== Kernel.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S32x32x16x32x16x3 : Shape := ⟨6, ![32, 32, 16, 32, 16, 3]⟩
abbrev S32x32x32x16x16x3 : Shape := ⟨6, ![32, 32, 32, 16, 16, 3]⟩
abbrev S32768x768 : Shape := ⟨2, ![32768, 768]⟩
abbrev S1x256 : Shape := ⟨2, ![1, 256]⟩
abbrev S32x1024x256 : Shape := ⟨3, ![32, 1024, 256]⟩
abbrev S32768x256 : Shape := ⟨2, ![32768, 256]⟩
abbrev S4096x768 : Shape := ⟨2, ![4096, 768]⟩
abbrev S4096x256 : Shape := ⟨2, ![4096, 256]⟩

abbrev nBuf : Space → Nat
  | .hbm => 18
  | .vmem => 8
  | .smem => 0
  | _ => 0

abbrev bufTy : (tb : Table) → Fin (tcTables nBuf tb) → BufTy
  | .hbm, ⟨0, _⟩ => ⟨S32x512x512x3, .f32⟩
  | .hbm, ⟨1, _⟩ => ⟨S768x256, .f32⟩
  | .hbm, ⟨2, _⟩ => ⟨S256, .f32⟩
  | .hbm, ⟨3, _⟩ => ⟨S32x1x256, .f32⟩
  | .hbm, ⟨4, _⟩ => ⟨S32x1025x256, .f32⟩
  | .hbm, ⟨5, _⟩ => ⟨S32x32x16x32x16x3, .f32⟩
  | .hbm, ⟨6, _⟩ => ⟨S32x32x32x16x16x3, .f32⟩
  | .hbm, ⟨7, _⟩ => ⟨S32768x768, .f32⟩
  | .hbm, ⟨8, _⟩ => ⟨S32768x768, .bf16⟩
  | .hbm, ⟨9, _⟩ => ⟨S768x256, .bf16⟩
  | .hbm, ⟨10, _⟩ => ⟨S1x256, .f32⟩
  | .hbm, ⟨11, _⟩ => ⟨S32x1024x256, .f32⟩
  | .hbm, ⟨12, _⟩ => ⟨S32768x256, .f32⟩
  | .hbm, ⟨13, _⟩ => ⟨S32768x256, .f32⟩
  | .hbm, ⟨14, _⟩ => ⟨S32x1024x256, .f32⟩
  | .hbm, ⟨15, _⟩ => ⟨S32x1x256, .f32⟩
  | .hbm, ⟨16, _⟩ => ⟨S32x1x256, .f32⟩
  | .hbm, ⟨17, _⟩ => ⟨S32x1025x256, .f32⟩
  | .local _ .vmem, ⟨0, _⟩ => ⟨S4096x768, .bf16⟩
  | .local _ .vmem, ⟨1, _⟩ => ⟨S4096x768, .bf16⟩
  | .local _ .vmem, ⟨2, _⟩ => ⟨S768x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x512x512x3_S32x32x16x32x16x3 : S32x512x512x3.ShapeCasts S32x32x16x32x16x3
  transposes_S32x32x16x32x16x3_S32x32x32x16x16x3_0_1_3_2_4_5 : S32x32x16x32x16x3.Transposes [0, 1, 3, 2, 4, 5] S32x32x32x16x16x3
  shapeCasts_S32x32x32x16x16x3_S32768x768 : S32x32x32x16x16x3.ShapeCasts S32768x768
  bitsLt_bf16_f32 : FTy.bits .bf16 < FTy.bits .f32
  shapeCasts_S256_S1x256 : S256.ShapeCasts S1x256
  slices_S32x1025x256_S32x1024x256_0_1_0 : S32x1025x256.Slices ![0, 1, 0] S32x1024x256
  shapeCasts_S32x1024x256_S32768x256 : S32x1024x256.ShapeCasts S32768x256
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S32768x256_S32x1024x256 : S32768x256.ShapeCasts S32x1024x256
  slices_S32x1025x256_S32x1x256_0_0_0 : S32x1025x256.Slices ![0, 0, 0] S32x1x256
  concatenates_S32x1x256_S32x1024x256_S32x1025x256_d1 : Shape.Concatenates [S32x1x256, S32x1024x256] S32x1025x256 1
  dot_S4096x768_S768x256_S4096x256_1_0_0_1_n_n_wf : DotDims.WF S4096x768 S768x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .bf16 = 32 ∨ (Rect.block (s := S32768x768) S4096x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S32768x256.size a
  hwx0_3 : ∀ i : grid0.Coords, EltTy.bits .f32 = 32 ∨ (Rect.block (s := S32768x256) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S32768x256.size a
  hwx0_4 : ∀ i : grid0.Coords, EltTy.bits .f32 = 32 ∨ (Rect.block (s := S32768x256) S4096x256.size (cc0_transform_4 i) (hinb0_4 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf

abbrev win0_0 : Pipeline.Window sig grid0 :=
  Pipeline.Window.ofSpec (Memref.whole main_v3) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S768x256 : Shape := ⟨2, ![768, 256]⟩
abbrev S256 : Shape := ⟨1, ![256]⟩
abbrev S32x1x256 : Shape := ⟨3, ![32, 1, 256]⟩
abbrev S32x1025x256 : Shape := ⟨3, ![32, 1025, 256]⟩
abbrev S32x32x16x32x16x3 : Shape := ⟨6, ![32, 32, 16, 32, 16, 3]⟩
abbrev S32x32x32x16x16x3 : Shape := ⟨6, ![32, 32, 32, 16, 16, 3]⟩
abbrev S32x1024x768 : Shape := ⟨3, ![32, 1024, 768]⟩
abbrev S32x1024x256 : Shape := ⟨3, ![32, 1024, 256]⟩
abbrev S1x1x256 : Shape := ⟨3, ![1, 1, 256]⟩

abbrev nBuf : Space → Nat
  | .hbm => 14
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S768x256, .f32⟩
  | .hbm, ⟨2, _⟩ => ⟨S256, .f32⟩
  | .hbm, ⟨3, _⟩ => ⟨S32x1x256, .f32⟩
  | .hbm, ⟨4, _⟩ => ⟨S32x1025x256, .f32⟩
  | .hbm, ⟨5, _⟩ => ⟨S32x32x16x32x16x3, .f32⟩
  | .hbm, ⟨6, _⟩ => ⟨S32x32x32x16x16x3, .f32⟩
  | .hbm, ⟨7, _⟩ => ⟨S32x1024x768, .f32⟩
  | .hbm, ⟨8, _⟩ => ⟨S32x1024x256, .f32⟩
  | .hbm, ⟨9, _⟩ => ⟨S1x1x256, .f32⟩
  | .hbm, ⟨10, _⟩ => ⟨S32x1024x256, .f32⟩
  | .hbm, ⟨11, _⟩ => ⟨S32x1024x256, .f32⟩
  | .hbm, ⟨12, _⟩ => ⟨S32x1025x256, .f32⟩
  | .hbm, ⟨13, _⟩ => ⟨S32x1025x256, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S32x512x512x3_S32x32x16x32x16x3 : S32x512x512x3.ShapeCasts S32x32x16x32x16x3
  transposes_S32x32x16x32x16x3_S32x32x32x16x16x3_0_1_3_2_4_5 : S32x32x16x32x16x3.Transposes [0, 1, 3, 2, 4, 5] S32x32x32x16x16x3
  shapeCasts_S32x32x32x16x16x3_S32x1024x768 : S32x32x32x16x16x3.ShapeCasts S32x1024x768
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  concatenates_S32x1x256_S32x1024x256_S32x1025x256_d1 : Shape.Concatenates [S32x1x256, S32x1024x256] S32x1025x256 1
  dot_S32x1024x768_S768x256_S32x1024x256_2_0_01_1_n_n_wf : DotDims.WF S32x1024x768 S768x256 S32x1024x256 [2] [0] [0, 1] [1] [] []

variable [Facts₀]

def dot_S32x1024x768_S768x256_S32x1024x256_2_0_01_1_n_n : DotDims S32x1024x768 S768x256 S32x1024x256 where
  lhsContracting := [2]
  rhsContracting := [0]
  lhsNonContracting := [0, 1]
  rhsNonContracting := [1]
  lhsBatch := []
  rhsBatch := []
  wf := dot_S32x1024x768_S768x256_S32x1024x256_2_0_01_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KernelBlock.lean ====
/-
  One block of the kernel. At a grid point the body multiplies a 4096×768 block of patch rows by the whole 768×256
  weight (into a zero accumulator), adds the bias row broadcast down the 4096 rows, then adds the 4096×256 block of
  position rows. Read at entry (p, q) of the block that is
      ((Σ_k a[p, k] · w[k, q]) + bias[0, q]) + pe[p, q].
-/
import proofs.«100975_j65352222376627_1_alg».proof.Proof.Gen.KernelIdeal.Skeleton
import proofs.«100975_j65352222376627_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-- The body's product contracts the block's columns with the weight's rows: the plain matrix product. -/
theorem dot_plain : dot_S4096x768_S768x256_S4096x256_1_0_0_1_n_n = DotDims.plain 4096 768 256 := rfl

/-- The bias row broadcast down the rows, at (p, q), is the row's entry q. -/
theorem bias_bcast_apply (v : FVec Ideal S1x256 .f32) (p : Fin 4096) (q : Fin 256) :
    broadcastTo S4096x256 v broadcasts_S1x256_S4096x256 (ix2 p q) = v (ix2 ⟨0, Nat.one_pos⟩ q) :=
  broadcastTo_apply v broadcasts_S1x256_S4096x256 (ix2 p q) (ix2 ⟨0, Nat.one_pos⟩ q) (fun a => by
    match a with
    | ⟨0, _⟩ => rfl
    | ⟨1, _⟩ => rfl)

/-- The stored block at entry (p, q). -/
theorem pay_apply (x0 : Vec Ideal S4096x768 .bf16) (x1 : Vec Ideal S768x256 .bf16) (x2 : Vec Ideal S1x256 .f32)
    (x3 : Vec Ideal S4096x256 .f32) (p : Fin 4096) (q : Fin 256) :
    k0_pay1 (F := Ideal) x0 x1 x2 x3 (ix2 p q)
      = ((∑ k : Fin 768, x0 (ix2 p k) * x1 (ix2 k q)) + x2 (ix2 ⟨0, Nat.one_pos⟩ q)) + x3 (ix2 p q) := by
  unfold k0_pay1
  simp only [shapeCast_self]
  rw [addf_apply, addf_apply, bias_bcast_apply, dot_plain]
  exact congrArg (fun z => z + x2 (ix2 ⟨0, Nat.one_pos⟩ q) + x3 (ix2 p q))
    (PlainDot.matmul_zero_apply 4096 768 256 x0 x1 (ix2 p q))

/-- The same at any entry `j` of the block, by its two coordinates. -/
theorem pay_at (x0 : Vec Ideal S4096x768 .bf16) (x1 : Vec Ideal S768x256 .bf16) (x2 : Vec Ideal S1x256 .f32)
    (x3 : Vec Ideal S4096x256 .f32) (j : S4096x256.Idx) :
    k0_pay1 (F := Ideal) x0 x1 x2 x3 j
      = ((∑ k : Fin 768, x0 (ix2 (n0 := 4096) (n1 := 768) ⟨(j 0).val, (j 0).isLt⟩ k) * x1 (ix2 (n0 := 768) (n1 := 256) k ⟨(j 1).val, (j 1).isLt⟩))
          + x2 (ix2 (n0 := 1) (n1 := 256) ⟨0, Nat.one_pos⟩ ⟨(j 1).val, (j 1).isLt⟩)) + x3 j := by
  have hj : j = ix2 (n0 := 4096) (n1 := 256) ⟨(j 0).val, (j 0).isLt⟩ ⟨(j 1).val, (j 1).isLt⟩ :=
    funext fun a => by match a with | ⟨0, _⟩ => rfl | ⟨1, _⟩ => rfl
  have h := pay_apply x0 x1 x2 x3 ⟨(j 0).val, (j 0).isLt⟩ ⟨(j 1).val, (j 1).isLt⟩
  rw [← hj] at h
  exact h

end Cert.KernelIdeal.Block

end
-- ==== Proof.Spec.lean ====
/-
  The patch embedding, as mathematics. The image array is cut into 16×16×3 patches and each patch flattened
  into a row of 768 numbers; call the resulting matrix of rows P (one row per image and patch: 32 · 1024 rows).
  Row r of the projection is  (Σ_k P[r, k] · W[k, h]) + bias[h].  The result has 1025 rows per image: row 0 is the
  class token plus the position embedding, row n + 1 is the projection of patch n plus the position embedding.

  The same matrix of rows is read in two arrangements — flat, [32·1024, 768], and per image, [32, 1024, 768] —
  and a reshape keeps row-major positions, so entry (b, n, d) of the second is entry (b·1024 + n, d) of the first.
  Nothing here needs the numbers to be finite: both programs add the same three terms in the same order, and the
  sum over k is one finite sum of products.
-/
import Idealize.ShloMosaic.PureOps.Ideal
import Idealize.ShloMosaic.Lib.ValueIdx
import Idealize.ShloMosaic.Lib.Pipeline.Value

noncomputable section

open scoped BigOperators

namespace PatchEmbed

open Idealize.ShloMosaic Idealize.ShloMosaic.ValueIdx

/-- The shapes, spelt out: the flattened patches, the weight, the bias as a row, the position rows laid flat, and the
    per-image forms. -/
abbrev SRows : Shape := ⟨2, ![32768, 768]⟩
abbrev SW : Shape := ⟨2, ![768, 256]⟩
abbrev SBiasRow : Shape := ⟨2, ![1, 256]⟩
abbrev SBias : Shape := ⟨1, ![256]⟩
abbrev SFlat : Shape := ⟨2, ![32768, 256]⟩
abbrev SImg : Shape := ⟨3, ![32, 1024, 256]⟩
abbrev SImgRows : Shape := ⟨3, ![32, 1024, 768]⟩
abbrev SCls : Shape := ⟨3, ![32, 1, 256]⟩
abbrev SOut : Shape := ⟨3, ![32, 1025, 256]⟩

/-- The patch array [32, 32, 32, 16, 16, 3] (image, patch row, patch column, then the patch's own row, column and
    channel) has as many entries as the flat matrix of patch rows. -/
abbrev SPatches : Shape := ⟨6, ![32, 32, 32, 16, 16, 3]⟩
theorem patches_cast_rows : SPatches.ShapeCasts SRows := by decide

/-- One entry of the projection: row `r` of the patches against column `h` of the weight, plus the bias. -/
def proj (P : SRows.Idx → EReal) (W : SW.Idx → EReal) (bias : Fin 256 → EReal) (r : Fin 32768) (h : Fin 256) : EReal :=
  (∑ k : Fin 768, P (ix2 r k) * W (ix2 k h)) + bias h

/-- The flat array the kernel produces: the projection plus the position rows, both laid out [32·1024, 256]. -/
def flatOut (P : SRows.Idx → EReal) (W : SW.Idx → EReal) (brow : SBiasRow.Idx → EReal) (pe : SFlat.Idx → EReal) :
    SFlat.Idx → EReal := fun j =>
  proj P W (fun h => brow (ix2 ⟨0, Nat.one_pos⟩ h)) ⟨(j 0).val, (j 0).isLt⟩ ⟨(j 1).val, (j 1).isLt⟩ + pe j

/-- The flat row of image `b`, patch row `n` (counted from 1 in the result; row 0 is the class token). -/
def rowOf (i : SOut.Idx) : Fin 32768 := ⟨(i 0).val * 1024 + ((i 1).val - 1), by
  have h0 : (i 0).val < 32 := (i 0).isLt
  have h1 : (i 1).val < 1025 := (i 1).isLt
  omega⟩

/-- The whole result, index by index. -/
def embedding (P : SRows.Idx → EReal) (W : SW.Idx → EReal) (bias : SBias.Idx → EReal) (cls : SCls.Idx → EReal)
    (pos : SOut.Idx → EReal) : SOut.Idx → EReal := fun i =>
  if (i 1).val = 0 then cls (ix3 ⟨(i 0).val, (i 0).isLt⟩ ⟨0, Nat.one_pos⟩ ⟨(i 2).val, (i 2).isLt⟩) + pos i
  else proj P W (fun h => bias (ix1 h)) (rowOf i) ⟨(i 2).val, (i 2).isLt⟩ + pos i

/-- A reshape keeps row-major order: the per-image arrangement [32, 1024, C] of an array read at (b, n, d) is the flat
    arrangement [32·1024, C] read at (b·1024 + n, d), whatever array of that many entries both are reshapes of. -/
theorem reshape_rows {α : Type} {s : Shape} (C : Nat) (T : s.Idx → α)
    (h2 : s.ShapeCasts ⟨2, ![32768, C]⟩) (h3 : s.ShapeCasts ⟨3, ![32, 1024, C]⟩)
    (j3 : (⟨3, ![32, 1024, C]⟩ : Shape).Idx) (j2 : (⟨2, ![32768, C]⟩ : Shape).Idx)
    (h0 : (j2 0).val = (j3 0).val * 1024 + (j3 1).val) (h1 : (j2 1).val = (j3 2).val) :
    shapeCast ⟨3, ![32, 1024, C]⟩ T h3 j3 = shapeCast ⟨2, ![32768, C]⟩ T h2 j2 := by
  unfold shapeCast
  refine congrArg T (Shape.reshapeEquiv_eq_of_rowMajor _ ?_)
  rw [Shape.rowMajor_reshapeEquiv, Shape.rowMajor_val_two, Shape.rowMajor_val_three, h0, h1]
  rfl

end PatchEmbed

end
-- ==== Proof.KernelWhole.lean ====
/-
  From blocks to the whole array. The grid has 8 points; at point t the kernel reads rows 4096·t … 4096·t + 4095 of
  the patch rows and of the position rows, the whole weight and the bias row, and writes rows 4096·t … of the result.
  So what point t writes back is block t of ONE whole-array function (`PatchEmbed.flatOut`) of the four arrays the
  region finds, the 8 blocks tile the 32768 rows, and the result array ends holding that function.
-/
import proofs.«100975_j65352222376627_1_alg».proof.Proof.Gen.KernelIdeal.Frame
import proofs.«100975_j65352222376627_1_alg».proof.Proof.KernelBlock
import proofs.«100975_j65352222376627_1_alg».proof.Proof.Spec
import Idealize.ShloMosaic.Lib.Pipeline.Value
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx Idealize.SL.Sem
open Cert.KernelIdeal Cert.KernelIdeal.Gen PatchEmbed
open Idealize.ShloMosaic.Pipeline (Dat)

variable (m : (ℓ : Loc nD τ sig) → Buf (Elt Ideal) ℓ)

/-- The four arrays the region reads, as it finds them: the patch rows, the weight, the bias row, the position rows. -/
abbrev rowsArr (c : Dev nD) : Vec Ideal S32768x768 .bf16 := V m c main_v3
abbrev wArr (c : Dev nD) : Vec Ideal S768x256 .bf16 := V m c main_v4
abbrev biasArr (c : Dev nD) : Vec Ideal S1x256 .f32 := V m c main_v5
abbrev peArr (c : Dev nD) : Vec Ideal S32768x256 .f32 := V m c main_v7

theorem hz : (![0, 0] : Fin 2 → Nat) = fun _ => 0 := funext fun a => by fin_cases a <;> rfl

/-- The printed index maps over the grid: the row blocks move with the point, the weight and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of patch rows at point t is rows 4096·t … of the patch rows. -/
theorem rows_blk (c : Dev nD) (t : Fin cfg0.N) (x : S4096x768.Idx) (k : S32768x768.Idx)
    (hk0 : (k 0).val = 4096 * t.val + (x 0).val) (hk1 : (k 1).val = (x 1).val) :
    (iblk m c 0 t : Vec Ideal S4096x768 .bf16) x = rowsArr m c k := by
  obtain ⟨e0, e1, -⟩ := idx_facts t
  unfold iblk
  rw [View.read_apply]
  show V m c main_v3 _ = V m c main_v3 _
  congr 1
  funext a
  apply Fin.ext
  match a with
  | ⟨0, _⟩ => show win0_0.index t (0 : Fin 2) * 4096 + 1 * (x 0).val = (k 0).val; rw [e0, hk0]; omega
  | ⟨1, _⟩ => show win0_0.index t (1 : Fin 2) * 768 + 1 * (x 1).val = (k 1).val; rw [e1, hk1]; omega

/-- The weight's block is the whole weight, at every point. -/
theorem w_blk (c : Dev nD) (t : Fin cfg0.N) (x : S768x256.Idx) :
    (iblk m c 1 t : Vec Ideal S768x256 .bf16) x = wArr m c x := by
  obtain ⟨-, -, e0, e1, -⟩ := idx_facts t
  unfold iblk
  rw [View.read_apply]
  show V m c main_v4 _ = V m c main_v4 _
  congr 1
  funext a
  apply Fin.ext
  match a with
  | ⟨0, _⟩ => show win0_1.index t (0 : Fin 2) * 768 + 1 * (x 0).val = (x 0).val; rw [e0]; omega
  | ⟨1, _⟩ => show win0_1.index t (1 : Fin 2) * 256 + 1 * (x 1).val = (x 1).val; rw [e1]; omega

/-- The bias row's block is the whole row, at every point. -/
theorem bias_blk (c : Dev nD) (t : Fin cfg0.N) (x : S1x256.Idx) :
    (iblk m c 2 t : Vec Ideal S1x256 .f32) x = biasArr m c x := by
  obtain ⟨-, -, -, -, e0, e1, -⟩ := idx_facts t
  unfold iblk
  rw [View.read_apply]
  show V m c main_v5 _ = V m c main_v5 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The block of position rows at point t is rows 4096·t … of the position rows. -/
theorem pe_blk (c : Dev nD) (t : Fin cfg0.N) (x : S4096x256.Idx) (k : S32768x256.Idx)
    (hk0 : (k 0).val = 4096 * t.val + (x 0).val) (hk1 : (k 1).val = (x 1).val) :
    (iblk m c 3 t : Vec Ideal S4096x256 .f32) x = peArr m c k := by
  obtain ⟨-, -, -, -, -, -, e0, e1, -⟩ := idx_facts t
  unfold iblk
  rw [View.read_apply]
  show V m c main_v7 _ = V m c main_v7 _
  congr 1
  funext a
  apply Fin.ext
  match a with
  | ⟨0, _⟩ => show win0_3.index t (0 : Fin 2) * 4096 + 1 * (x 0).val = (k 0).val; rw [e0, hk0]; omega
  | ⟨1, _⟩ => show win0_3.index t (1 : Fin 2) * 256 + 1 * (x 1).val = (k 1).val; rw [e1, hk1]; omega

/-- What point t writes back is block t of `flatOut` of the four arrays. -/
theorem flushed_eq (c : Dev nD) (t : Fin cfg0.N) :
    (dats m 0 c).flushed 4 t
      = ((cfg0.win 4).blk t).view.read (Elt Ideal) (flatOut (rowsArr m c) (wArr m c) (biasArr m c) (peArr m c)) := by
  show (cfg0.win 4).cut (grid0.coords t) ((dats m 0 c).after 4 t) = _
  rw [after0_4]
  unfold out0_4
  rw [View.canon_unit_zero hz]
  simp only [View.ld_unit_zero (S := S4096x768) hz, View.ld_unit_zero (S := S768x256) hz,
    View.ld_unit_zero (S := S1x256) hz, View.ld_unit_zero (S := S4096x256) hz]
  obtain ⟨-, -, -, -, -, -, -, -, e0, e1⟩ := idx_facts t
  funext j
  show k0_pay1 (F := Ideal) (iblk m c 0 t) (iblk m c 1 t) (iblk m c 2 t) (iblk m c 3 t) j
    = flatOut (rowsArr m c) (wArr m c) (biasArr m c) (peArr m c) (((cfg0.win 4).blk t).view.emb j)
  have hE0 : ((((cfg0.win 4).blk t).view.emb j) 0).val = 4096 * t.val + (j 0).val := by
    show win0_4.index t (0 : Fin 2) * 4096 + 1 * (j 0).val = _
    rw [e0]; omega
  have hE1 : ((((cfg0.win 4).blk t).view.emb j) 1).val = (j 1).val := by
    show win0_4.index t (1 : Fin 2) * 256 + 1 * (j 1).val = _
    rw [e1]; omega
  refine (Block.pay_at (iblk m c 0 t) (iblk m c 1 t) (iblk m c 2 t) (iblk m c 3 t) j).trans ?_
  unfold flatOut proj
  refine congrArg₂ (· + ·) (congrArg₂ (· + ·) (Finset.sum_congr rfl fun k _ => congrArg₂ (· * ·) ?_ ?_) ?_) ?_
  · exact rows_blk m c t _ _ hE0 rfl
  · refine (w_blk m c t _).trans (congrArg (wArr m c) ?_)
    funext a
    apply Fin.ext
    match a with
    | ⟨0, _⟩ => rfl
    | ⟨1, _⟩ => exact hE1.symm
  · refine (bias_blk m c t _).trans (congrArg (biasArr m c) ?_)
    funext a
    apply Fin.ext
    match a with
    | ⟨0, _⟩ => rfl
    | ⟨1, _⟩ => exact hE1.symm
  · exact pe_blk m c t j _ hE0 hE1

/-- An index of the result array is in point t's block iff each coordinate is in the block's range. -/
theorem mem_blk (t : Fin cfg0.N) (i : S32768x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v8).slice (win0_4.rect t)).set ↔ _
  rw [View.set_slice_whole, Rect.mem_set_unit]
  exact Iff.rfl

/-- Row r is in the block of point r / 4096: the 8 blocks tile the array. -/
theorem cover (i : S32768x256.Idx) : ∃ t : Fin cfg0.N, (cfg0.win 4).flush t = true ∧ i ∈ ((cfg0.win 4).blk t).view.set := by
  have hi0 : (i 0).val < 32768 := (i 0).isLt
  have hi1 : (i 1).val < 256 := (i 1).isLt
  have hN : cfg0.N = 8 := N_0
  let t : Fin cfg0.N := ⟨(i 0).val / 4096, by rw [hN]; omega⟩
  obtain ⟨-, -, -, -, -, -, -, -, e0, e1⟩ := idx_facts t
  have ht : t.val = (i 0).val / 4096 := rfl
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0, ht]; omega
  | ⟨1, _⟩ =>
    show win0_4.index t (1 : Fin 2) * 256 ≤ (i 1).val ∧ (i 1).val < win0_4.index t (1 : Fin 2) * 256 + 256
    rw [e1]; omega

/-- The result array after the region. -/
theorem final (c : Dev nD) :
    (dats m 0 c).arrAt 4 cfg0.N = flatOut (rowsArr m c) (wArr m c) (biasArr m c) (peArr m c) :=
  (dats m 0 c).arrAt_eq_of_cover 4 (flatOut (rowsArr m c) (wArr m c) (biasArr m c) (peArr m c))
    (fun t _ => flushed_eq m c t) cover

end Cert.KernelIdeal.Whole

end
-- ==== Proof.KernelHost.lean ====
/-
  The host lines around the region. Before it: the image is reshaped to [32, 32, 16, 32, 16, 3], the two middle patch
  axes are swapped, and the result is laid flat as one row of 768 numbers per patch (the change of float format is
  the identity on extended reals); the bias becomes a row; rows 1 … 1024 of the position embedding are laid flat.
  After it: the flat result is cut back into images, row 0 of the position embedding is added to the class token, and
  that row is put in front of each image's 1024 rows. Read at an index, the whole program computes
  `PatchEmbed.embedding`.
-/
import proofs.«100975_j65352222376627_1_alg».proof.Proof.KernelWhole
import Idealize.ShloMosaic.Lib.StableHlo.Run

set_option maxRecDepth 16384

noncomputable section

open scoped BigOperators

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.Whole PatchEmbed
open Idealize.ShloMosaic.Pipeline (Dat)

variable (m : (ℓ : Loc nD τ sig) → Buf (Elt Ideal) ℓ) (ρ : Dev nD → PrngReg)

/-- The image cut into patches: [32, 32, 32, 16, 16, 3], image, patch row, patch column, then the patch's own
    row, column and channel. -/
abbrev patches6 (x : Vec Ideal S32x512x512x3 .f32) : Vec Ideal S32x32x32x16x16x3 .f32 :=
  transpose S32x32x32x16x16x3 [0, 1, 3, 2, 4, 5] (shapeCast S32x32x16x32x16x3 x shapeCasts_S32x512x512x3_S32x32x16x32x16x3)
    transposes_S32x32x16x32x16x3_S32x32x32x16x16x3_0_1_3_2_4_5

theorem rows_eq (c : Dev nD) :
    rowsArr m c = shapeCast S32768x768 (patches6 (m ((c : Thread nD τ).loc main_arg0))) shapeCasts_S32x32x32x16x16x3_S32768x768 := by
  show StableHlo.after hostOps0 (fun b => m (c, b)) (Proc.devRef .tc main_v3) = _
  after_results
  rfl

theorem w_eq (c : Dev nD) : wArr m c = m ((c : Thread nD τ).loc main_arg1) := by
  show StableHlo.after hostOps0 (fun b => m (c, b)) (Proc.devRef .tc main_v4) = _
  after_results
  rfl

theorem bias_eq (c : Dev nD) :
    biasArr m c = shapeCast S1x256 (m ((c : Thread nD τ).loc main_arg2)) shapeCasts_S256_S1x256 := by
  show StableHlo.after hostOps0 (fun b => m (c, b)) (Proc.devRef .tc main_v5) = _
  after_results
  rfl

theorem pe_eq (c : Dev nD) :
    peArr m c = shapeCast S32768x256 (extractStridedSlice S32x1024x256 ![0, 1, 0] (m ((c : Thread nD τ).loc main_arg4))
      slices_S32x1025x256_S32x1024x256_0_1_0) shapeCasts_S32x1024x256_S32768x256 := by
  show StableHlo.after hostOps0 (fun b => m (c, b)) (Proc.devRef .tc main_v7) = _
  after_results
  rfl

/-- The lines after the region, as one function of the class token, the position embedding and the flat result. -/
def tailOf (cls : FVec Ideal S32x1x256 .f32) (pos : FVec Ideal S32x1025x256 .f32) (flat : FVec Ideal S32768x256 .f32) :
    FVec Ideal S32x1025x256 .f32 :=
  concatenate S32x1025x256 1 [⟨S32x1x256, addf (F := Ideal) cls
        (extractStridedSlice S32x1x256 ![0, 0, 0] pos slices_S32x1025x256_S32x1x256_0_0_0)⟩,
      ⟨S32x1024x256, shapeCast S32x1024x256 flat shapeCasts_S32768x256_S32x1024x256⟩]
    concatenates_S32x1x256_S32x1024x256_S32x1025x256_d1

theorem tail_eq (c : Dev nD) :
    Pipeline.afterTail₀ cfgs (dats m) 0 (V0 m) [hostOps1] c main_v12
      = tailOf (m ((c : Thread nD τ).loc main_arg3)) (m ((c : Thread nD τ).loc main_arg4))
          (flatOut (rowsArr m c) (wArr m c) (biasArr m c) (peArr m c)) := by
  unfold Pipeline.afterTail₀
  show StableHlo.after hostOps1 _ (Proc.devRef .tc main_v12) = _
  after_results
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have e8 : Pipeline.withArrays (cfgs 0).spec c (V0 m c) (fun w => (dats m 0 c).arrAt w (cfgs 0).N) (Proc.devRef .tc main_v8)
      = flatOut (rowsArr m c) (wArr m c) (biasArr m c) (peArr m c) :=
    (Pipeline.withArrays_arr spec0 launch0.win.arr_inj c _ _ 4).trans (final m c)
  rw [e3, e4, e8]
  rfl

/-- The bias laid out as a row: entry (0, h) of the row is entry h of the bias. -/
theorem bias_row (bias : FVec Ideal S256 .f32) (h : Fin 256) :
    shapeCast S1x256 bias shapeCasts_S256_S1x256 (ix2 (n0 := 1) (n1 := 256) ⟨0, Nat.one_pos⟩ h) = bias (ix1 h) :=
  shapeCast_apply bias shapeCasts_S256_S1x256 _ (ix1 h) (by
    rw [Shape.rowMajor_val_one, Shape.rowMajor_val_two]
    show h.val = 0 * 256 + h.val
    omega)

/-- Rows 1 … 1024 of the position embedding laid flat: flat row b·1024 + n is row n + 1 of image b. -/
theorem pe_flat (pos : FVec Ideal S32x1025x256 .f32) (i : S32x1025x256.Idx) (hz : ¬ (i 1).val = 0) (k : S32768x256.Idx)
    (hk0 : (k 0).val = (i 0).val * 1024 + ((i 1).val - 1)) (hk1 : (k 1).val = (i 2).val) :
    shapeCast S32768x256 (extractStridedSlice S32x1024x256 ![0, 1, 0] pos slices_S32x1025x256_S32x1024x256_0_1_0)
      shapeCasts_S32x1024x256_S32768x256 k = pos i := by
  have h1 : (i 1).val < 1025 := (i 1).isLt
  let j : S32x1024x256.Idx :=
    ix3 (n0 := 32) (n1 := 1024) (n2 := 256) ⟨(i 0).val, (i 0).isLt⟩ ⟨(i 1).val - 1, by omega⟩ ⟨(i 2).val, (i 2).isLt⟩
  refine (shapeCast_apply _ shapeCasts_S32x1024x256_S32768x256 k j (by
      rw [Shape.rowMajor_val_two, Shape.rowMajor_val_three, hk0, hk1]
      rfl)).trans ?_
  exact extractStridedSlice_apply ![0, 1, 0] pos slices_S32x1025x256_S32x1024x256_0_1_0 j i (fun a => by
    match a with
    | ⟨0, _⟩ => show (i 0).val = 0 + (i 0).val; omega
    | ⟨1, _⟩ => show (i 1).val = 1 + ((i 1).val - 1); omega
    | ⟨2, _⟩ => show (i 2).val = 0 + (i 2).val; omega)

/-- The lines after the region, applied to the flat result of the lines before it and the region, are the
    embedding, index by index. -/
theorem tail_embedding (x : FVec Ideal S32x512x512x3 .f32) (W : FVec Ideal S768x256 .f32) (bias : FVec Ideal S256 .f32)
    (cls : FVec Ideal S32x1x256 .f32) (pos : FVec Ideal S32x1025x256 .f32) :
    tailOf cls pos (flatOut (shapeCast S32768x768 (patches6 x) shapeCasts_S32x32x32x16x16x3_S32768x768) W
        (shapeCast S1x256 bias shapeCasts_S256_S1x256)
        (shapeCast S32768x256 (extractStridedSlice S32x1024x256 ![0, 1, 0] pos slices_S32x1025x256_S32x1024x256_0_1_0)
          shapeCasts_S32x1024x256_S32768x256))
      = embedding (shapeCast SRows (patches6 x) patches_cast_rows) W bias cls pos := by
  funext i
  have h0 : (i 0).val < 32 := (i 0).isLt
  have h1 : (i 1).val < 1025 := (i 1).isLt
  have h2 : (i 2).val < 256 := (i 2).isLt
  unfold tailOf embedding
  by_cases hz : (i 1).val = 0
  · rw [if_pos hz]
    let j : S32x1x256.Idx :=
      ix3 (n0 := 32) (n1 := 1) (n2 := 256) ⟨(i 0).val, (i 0).isLt⟩ ⟨0, Nat.one_pos⟩ ⟨(i 2).val, (i 2).isLt⟩
    refine (concatenate_pair_apply_left 1 _ _ concatenates_S32x1x256_S32x1024x256_S32x1025x256_d1 i rfl j (fun b => by
        match b with
        | ⟨0, _⟩ => rfl
        | ⟨1, _⟩ => exact hz.symm
        | ⟨2, _⟩ => rfl)).trans ?_
    refine congrArg (cls j + ·) ?_
    exact extractStridedSlice_apply ![0, 0, 0] pos slices_S32x1025x256_S32x1x256_0_0_0 j i (fun a => by
      match a with
      | ⟨0, _⟩ => show (i 0).val = 0 + (i 0).val; omega
      | ⟨1, _⟩ => show (i 1).val = 0 + 0; omega
      | ⟨2, _⟩ => show (i 2).val = 0 + (i 2).val; omega)
  · rw [if_neg hz]
    refine (concatenate_pair_apply_right 1 _ _ concatenates_S32x1x256_S32x1024x256_S32x1025x256_d1 i rfl rfl
      (ix3 (n0 := 32) (n1 := 1024) (n2 := 256) ⟨(i 0).val, (i 0).isLt⟩ ⟨(i 1).val - 1, by omega⟩ ⟨(i 2).val, (i 2).isLt⟩) (fun b hb => by
        match b with
        | ⟨0, _⟩ => rfl
        | ⟨1, _⟩ => exact absurd rfl hb
        | ⟨2, _⟩ => rfl) (by show (i 1).val - 1 + 1 = (i 1).val; omega)).trans ?_
    refine (shapeCast_apply _ shapeCasts_S32768x256_S32x1024x256 _
      (ix2 (n0 := 32768) (n1 := 256) (rowOf i) ⟨(i 2).val, (i 2).isLt⟩) (by
        rw [Shape.rowMajor_val_two, Shape.rowMajor_val_three]
        rfl)).trans ?_
    unfold flatOut
    refine congrArg₂ (· + ·) ?_ (pe_flat pos i hz _ rfl rfl)
    unfold proj
    refine congrArg₂ (· + ·) rfl ?_
    exact bias_row bias _

/-- The program's result buffer, after the lines that follow the region, holds the embedding of the arguments. -/
theorem result_eq (c : Dev nD) :
    Pipeline.afterTail₀ cfgs (dats m) 0 (V0 m) [hostOps1] c main_v12
      = embedding (shapeCast SRows (patches6 (m ((c : Thread nD τ).loc main_arg0))) patches_cast_rows)
          (m ((c : Thread nD τ).loc main_arg1)) (m ((c : Thread nD τ).loc main_arg2))
          (m ((c : Thread nD τ).loc main_arg3)) (m ((c : Thread nD τ).loc main_arg4)) := by
  rw [tail_eq, rows_eq, w_eq, bias_eq, pe_eq]
  exact tail_embedding _ _ _ _ _

/-- The run, read: every weakly fair execution ends with the result at the embedding and the arguments unchanged. -/
theorem run : θ_run defs (onTc (τ := τ) (main (F := Ideal))) ⟨m, fun _ => 0, ρ⟩ fun r => ∀ c : Dev nD,
      r.2.mem ((c.tc : Thread nD τ).loc main_v12)
        = embedding (shapeCast SRows (patches6 (m ((c : Thread nD τ).loc main_arg0))) patches_cast_rows)
            (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference, read at an index. It lays the same patch array out per image, [32, 1024, 768], contracts its last
  axis with the weight's first, adds the bias broadcast over images and patches, puts the class token in front of each
  image's 1024 rows and adds the whole position embedding. At row 0 that is the class token plus the position
  embedding; at row n + 1 it is the projection of flat row b·1024 + n plus the position embedding — the function
  `PatchEmbed.embedding`.
-/
import proofs.«100975_j65352222376627_1_alg».proof.Proof.Gen.ReferenceIdeal.Read
import proofs.«100975_j65352222376627_1_alg».proof.Proof.Spec
import Idealize.ShloMosaic.Lib.Pipeline.Value
import Idealize.ShloMosaic.Lib.ValueIdx

noncomputable section

open scoped BigOperators

namespace Cert.ReferenceIdeal.RefValue

open Idealize.ShloMosaic Idealize.ShloMosaic.ValueIdx
open Cert.ReferenceIdeal Cert.ReferenceIdeal.Gen Cert.ReferenceIdeal.Read PatchEmbed

/-- The reference's result is `embedding` of the patch rows laid flat, the weight, the bias, the class token and the
    position embedding. -/
theorem result_eq (x0 : Vec Ideal S32x512x512x3 .f32) (x1 : Vec Ideal S768x256 .f32) (x2 : Vec Ideal S256 .f32)
    (x3 : Vec Ideal S32x1x256 .f32) (x4 : Vec Ideal S32x1025x256 .f32) :
    val_main_v8 (F := Ideal) x0 x1 x2 x3 x4
      = embedding (shapeCast SRows (val_main_v1 (F := Ideal) x0) patches_cast_rows) x1 x2 x3 x4 := by
  funext i
  have h0 : (i 0).val < 32 := (i 0).isLt
  have h1 : (i 1).val < 1025 := (i 1).isLt
  have h2 : (i 2).val < 256 := (i 2).isLt
  rw [val_main_v8_apply]
  unfold embedding
  by_cases hz : (i 1).val = 0
  · rw [if_pos hz]
    refine congrArg (· + x4 i) ?_
    unfold val_main_v7
    exact concatenate_pair_apply_left 1 x3 (val_main_v6 (F := Ideal) x0 x1 x2) concatenates_S32x1x256_S32x1024x256_S32x1025x256_d1 i rfl
      (ix3 (n0 := 32) (n1 := 1) (n2 := 256) ⟨(i 0).val, (i 0).isLt⟩ ⟨0, Nat.one_pos⟩ ⟨(i 2).val, (i 2).isLt⟩) (fun b => by
        match b with
        | ⟨0, _⟩ => rfl
        | ⟨1, _⟩ => exact hz.symm
        | ⟨2, _⟩ => rfl)
  · rw [if_neg hz]
    refine congrArg (· + x4 i) ?_
    unfold val_main_v7
    refine (concatenate_pair_apply_right 1 x3 (val_main_v6 (F := Ideal) x0 x1 x2) concatenates_S32x1x256_S32x1024x256_S32x1025x256_d1 i rfl rfl
      (ix3 (n0 := 32) (n1 := 1024) (n2 := 256) ⟨(i 0).val, (i 0).isLt⟩ ⟨(i 1).val - 1, by omega⟩ ⟨(i 2).val, (i 2).isLt⟩) (fun b hb => by
        match b with
        | ⟨0, _⟩ => rfl
        | ⟨1, _⟩ => exact absurd rfl hb
        | ⟨2, _⟩ => rfl) (by show (i 1).val - 1 + 1 = (i 1).val; omega)).trans ?_
    rw [val_main_v6_apply, val_main_v3_apply, val_main_v5_apply, val_main_v4_apply]
    unfold proj
    refine congrArg₂ (· + ·) (Finset.sum_congr rfl fun k _ => congrArg₂ (· * ·) ?_ ?_) ?_
    · unfold val_main_v2
      exact reshape_rows 768 (val_main_v1 (F := Ideal) x0) patches_cast_rows shapeCasts_S32x32x32x16x16x3_S32x1024x768 _ _ rfl rfl
    · refine congrArg x1 (funext fun a => Fin.ext ?_)
      match a with
      | ⟨0, _⟩ => rfl
      | ⟨1, _⟩ => rfl
    · refine congrArg x2 (funext fun a => Fin.ext ?_)
      match a with
      | ⟨0, _⟩ => rfl

end Cert.ReferenceIdeal.RefValue

end
-- ==== Proof.lean ====
/-
  Patch embedding: a kernel against its plain reference, equal as extended reals.

  Both programs cut the image x : [32, 512, 512, 3] into 32·32 patches of 16×16×3 numbers per image and flatten each
  patch into a row of 768 numbers. The reference keeps the rows per image, [32, 1024, 768], contracts them with the
  weight W : [768, 256], adds the bias, puts the class token in front of each image's 1024 rows and adds the position
  embedding. The kernel lays all 32·1024 rows flat; on a grid of 8 points each point multiplies 4096 rows by W, adds the
  bias row and the matching 4096 flat rows 1 … 1024 of the position embedding; afterwards the host cuts the flat result
  back into images and puts (class token + row 0 of the position embedding) in front.

  Index by index both are
      out[b, 0, h]     = cls[b, 0, h] + pos[b, 0, h]
      out[b, n + 1, h] = ((Σ_k P[b·1024 + n, k] · W[k, h]) + bias[h]) + pos[b, n + 1, h],
  with the same three terms added in the same order and the same finite sum of products, so no law is needed that
  could fail at an infinity; the only bridge between the two texts is that a reshape keeps row-major order
  (entry (b, n, k) of the per-image rows is entry (b·1024 + n, k) of the flat rows), and a change of float format is
  the identity on extended reals.

  The modules: Spec (the function `PatchEmbed.embedding` and the reshape fact), KernelBlock (one block of the kernel
  at an entry), KernelWhole (from the 8 blocks to the whole flat array), KernelHost (the host lines before and after
  the region, and the kernel's run), RefValue (the reference read at an index).
-/
import proofs.«100975_j65352222376627_1_alg».proof.Defs
import proofs.«100975_j65352222376627_1_alg».proof.Proof.Gen.Kernel
import proofs.«100975_j65352222376627_1_alg».proof.Proof.Gen.Kernel.Skeleton
import proofs.«100975_j65352222376627_1_alg».proof.Proof.Gen.Kernel.Launch
import proofs.«100975_j65352222376627_1_alg».proof.Proof.Gen.Kernel.Points
import proofs.«100975_j65352222376627_1_alg».proof.Proof.Gen.Kernel.Frame
import proofs.«100975_j65352222376627_1_alg».proof.Proof.Gen.KernelIdeal
import proofs.«100975_j65352222376627_1_alg».proof.Proof.Gen.KernelIdeal.Skeleton
import proofs.«100975_j65352222376627_1_alg».proof.Proof.Gen.KernelIdeal.Launch
import proofs.«100975_j65352222376627_1_alg».proof.Proof.Gen.KernelIdeal.Points
import proofs.«100975_j65352222376627_1_alg».proof.Proof.Gen.KernelIdeal.Frame
import proofs.«100975_j65352222376627_1_alg».proof.Proof.Gen.ReferenceIdeal
import proofs.«100975_j65352222376627_1_alg».proof.Proof.Gen.Pre_finite_inputs
import proofs.«100975_j65352222376627_1_alg».proof.Proof.Gen.ReferenceIdeal.Run
import proofs.«100975_j65352222376627_1_alg».proof.Proof.Gen.ReferenceIdeal.Read
import proofs.«100975_j65352222376627_1_alg».proof.Proof.KernelHost
import proofs.«100975_j65352222376627_1_alg».proof.Proof.RefValue
import Idealize.ShloMosaic.Adequacy
import Idealize.ShloMosaic.Init

noncomputable section

namespace Cert.Proof

open Idealize.ShloMosaic Idealize.SL.Sem

/-- The three programs run to the end without fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result and the reference's are the same embedding. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
